-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S2 : Shape := ⟨1, ![2]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S50000 : Shape := ⟨1, ![50000]⟩

abbrev nBuf : Space → Nat
  | .hbm => 83
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S1x128, .f32⟩
  | .hbm, ⟨15, _⟩ => ⟨S1x128, .f32⟩
  | .hbm, ⟨16, _⟩ => ⟨S_, .f32⟩
  | .hbm, ⟨17, _⟩ => ⟨S128x128, .f32⟩
  | .hbm, ⟨18, _⟩ => ⟨S128, .f32⟩
  | .hbm, ⟨19, _⟩ => ⟨S_, .i32⟩
  | .hbm, ⟨20, _⟩ => ⟨S1, .i32⟩
  | .hbm, ⟨21, _⟩ => ⟨S128x128, .f32⟩
  | .hbm, ⟨22, _⟩ => ⟨S_, .f32⟩
  | .hbm, ⟨23, _⟩ => ⟨S1x128, .f32⟩
  | .hbm, ⟨24, _⟩ => ⟨S_, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .f32⟩
  | .hbm, ⟨45, _⟩ => ⟨S800000x1, .f32⟩
  | .hbm, ⟨46, _⟩ => ⟨S_, .f32⟩
  | .hbm, ⟨47, _⟩ => ⟨S50000x1, .f32⟩
  | .hbm, ⟨48, _⟩ => ⟨S800000x1, .i32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S800000x1, .f32⟩
  | .hbm, ⟨71, _⟩ => ⟨S_, .f32⟩
  | .hbm, ⟨72, _⟩ => ⟨S50000x1, .f32⟩
  | .hbm, ⟨73, _⟩ => ⟨S800000x1, .i32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x1, .f32⟩
  | .hbm, ⟨82, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x128_S128x128 : S128x128.ShapeCasts S128x128
  slices_S50000x128_S50000x1_0_0 : S50000x128.Slices ![0, 0] S50000x1
  shapeCasts_S50000x1_S50000 : S50000x1.ShapeCasts S50000
  scatter_S128x128_S1_S128_0_1_1_0_wf : ScatterDims.WF S128x128 S1 S128 [0] [1] [1] 0
  scatter_S1x128_S2_S__n_01_01_0_wf : ScatterDims.WF S1x128 S2 S_ [] [0, 1] [0, 1] 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v33) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩
abbrev S50000 : Shape := ⟨1, ![50000]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S50000x1, .f32⟩
  | .hbm, ⟨31, _⟩ => ⟨S800000x1, .i32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x1, .f32⟩
  | .hbm, ⟨81, _⟩ => ⟨S1x1, .f32⟩
  | .hbm, ⟨82, _⟩ => ⟨S50000x1, .f32⟩
  | .hbm, ⟨83, _⟩ => ⟨S50000x1, .f32⟩
  | .hbm, ⟨84, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KDefs.lean ====
/-
  The host-side arithmetic that surrounds the dense layers, named once so that it is carried, never opened.

  `srcK` / `dstK` are the two rows of the edge list. `aggK f ei` is the neighbour mean of a feature array
  `f`: gather the rows of `f` at the source nodes (a negative index first wrapped by the node count), add each
  gathered row into its destination node's row, and divide by the number of incoming edges, at least one.
-/
import proofs.«177558_j77171972374887_1_alg».proof.Proof.Gen.KernelIdeal

noncomputable section

namespace Cert.KernelIdeal.Sage

open Cert.KernelIdeal Cert.KernelIdeal.Gen Idealize.ShloMosaic

variable {F : FTy → Type} [FloatOps F]

/-- Row 0 of the edge list: each edge's source node. -/
def srcK (ei : IVec S2x800000 32) : IVec S800000 32 :=
  shapeCast _ (extractStridedSlice S1x800000 ![0, 0] ei slices_S2x800000_S1x800000_0_0) shapeCasts_S1x800000_S800000

/-- Row 1 of the edge list: each edge's destination node. -/
def dstK (ei : IVec S2x800000 32) : IVec S800000 32 :=
  shapeCast _ (extractStridedSlice S1x800000 ![1, 0] ei slices_S2x800000_S1x800000_1_0) shapeCasts_S1x800000_S800000

/-- The neighbour mean of `f` over the edge list `ei`. -/
def aggK (f : FVec F S50000x128 .f32) (ei : IVec S2x800000 32) : FVec F S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (dstK ei)) (Host.gather gather_S50000x128_S800000x1_S800000x128_1_0_n_n_0_1_1128 f (broadcastInDim S800000x1 ![0] bcast_S800000_S800000x1_0 (select (cmpi .slt (srcK ei) (broadcastInDim S800000 ![] bcast_S_S800000 (constantI S_ 32 0#32))) (addi (srcK ei) (broadcastInDim S800000 ![] bcast_S_S800000 (constantI S_ 32 50000#32))) (srcK ei))))) (broadcastInDim S50000x128 ![0, 1] bcast_S50000x1_S50000x128_0_1 (maximumf (Host.scatterAdd scatter_S50000x1_S800000x1_S800000x1_1_0_0_1 (broadcastInDim S50000x1 ![] bcast_S_S50000x1 (constant S_ .f32 0x00000000#32)) (broadcastInDim S800000x1 ![0] bcast_S800000_S800000x1_0 (dstK ei)) (broadcastInDim S800000x1 ![] bcast_S_S800000x1 (constant S_ .f32 0x3F800000#32))) (broadcastInDim S50000x1 ![] bcast_S_S50000x1 (constant S_ .f32 0x3F800000#32))))

/-- A bias vector as the one-row matrix the kernels read. -/
def rowK (b : FVec F S128 .f32) : FVec F S1x128 .f32 := shapeCast _ b shapeCasts_S128_S1x128

/-- The head's weight column written into column 0 of a zero 128 × 128 matrix. -/
def woutPadK (wo : FVec F S128x1 .f32) : FVec F S128x128 .f32 :=
  Host.scatter scatter_S128x128_S1_S128_0_1_1_0 (fun _ b => b) (broadcastInDim S128x128 ![] bcast_S_S128x128 (constant S_ .f32 0x00000000#32)) (broadcastInDim S1 ![] bcast_S_S1 (constantI S_ 32 0#32)) (shapeCast _ wo shapeCasts_S128x1_S128)

/-- The head's bias written into entry (0, 0) of a zero 1 × 128 row. -/
def boutPadK (bo : FVec F S1 .f32) : FVec F S1x128 .f32 :=
  Host.scatter scatter_S1x128_S2_S__n_01_01_0 (fun _ b => b) (broadcastInDim S1x128 ![] bcast_S_S1x128 (constant S_ .f32 0x00000000#32)) (concatenate S2 0 [⟨S1, broadcastInDim S1 ![] bcast_S_S1 (constantI S_ 32 0#32)⟩, ⟨S1, broadcastInDim S1 ![] bcast_S_S1 (constantI S_ 32 0#32)⟩] concatenates_S1_S1_S2_d0) (shapeCast _ bo shapeCasts_S1_S_)

end Cert.KernelIdeal.Sage

end
-- ==== Proof.Spec.lean ====
/-
  The mathematics both programs compute, index by index on the extended reals.

  A graph of 50000 nodes carries 128 features per node. One layer sends node `n`'s features to
  `relu((a n · Wl + b) + (x n · Wr))`, where `a` is the array of neighbour means and `x` the nodes' own
  features; the sums run over the 128 input features, in the association written here (the mean term
  and the bias first, the root term added last). The regression head reads a hidden array `h` as
  `∑ k, h n k * Wp k j + bp j`; the certified result is its column `0`.
-/
import Idealize.ShloMosaic.PureOps.Ideal
import Idealize.ShloMosaic.Lib.ValueIdx

noncomputable section

open scoped BigOperators

namespace Sage

open Idealize.ShloMosaic Idealize.ShloMosaic.ValueIdx

/-- Node features: 50000 nodes by 128 features. -/
abbrev SN : Shape := ⟨2, ![50000, 128]⟩
/-- A square weight matrix, input feature by output feature. -/
abbrev SW : Shape := ⟨2, ![128, 128]⟩
/-- One value per node. -/
abbrev SO : Shape := ⟨1, ![50000]⟩

/-- One layer at node `n`, output feature `j`, over coordinates. -/
def layerC (a x : Fin 50000 → Fin 128 → EReal) (Wl : Fin 128 → Fin 128 → EReal) (b : Fin 128 → EReal)
    (Wr : Fin 128 → Fin 128 → EReal) (n : Fin 50000) (j : Fin 128) : EReal :=
  max ((∑ k : Fin 128, a n k * Wl k j + b j) + ∑ k : Fin 128, x n k * Wr k j) (Ideal.ofBits .f32 0x00000000#32)

/-- The same layer as a whole array of the arrays it reads. -/
def layerV (a x : FVec Ideal SN .f32) (Wl : FVec Ideal SW .f32) (b : Fin 128 → EReal) (Wr : FVec Ideal SW .f32) :
    FVec Ideal SN .f32 :=
  fun i => layerC (fun n k => a (ix2 n k)) (fun n k => x (ix2 n k)) (fun k j => Wl (ix2 k j)) b
    (fun k j => Wr (ix2 k j)) (i 0) (i 1)

/-- The second layer followed by the head, all 128 head columns: what the second kernel leaves. -/
def headV (a h : FVec Ideal SN .f32) (Wl : FVec Ideal SW .f32) (b : Fin 128 → EReal) (Wr : FVec Ideal SW .f32)
    (Wp : FVec Ideal SW .f32) (bp : Fin 128 → EReal) : FVec Ideal SN .f32 :=
  fun i => (∑ k : Fin 128, layerV a h Wl b Wr (ix2 (i 0) k) * Wp (ix2 k (i 1))) + bp (i 1)

/-- The certified result at node `n`: the head's one real column over a hidden array `h`. -/
def outV (h : FVec Ideal SN .f32) (wo : Fin 128 → EReal) (bo : EReal) : FVec Ideal SO .f32 :=
  fun i => (∑ k : Fin 128, h (ix2 (i 0) k) * wo k) + bo

/-- The whole model over an aggregation `agg` (hidden array ↦ array of neighbour means, the same at both layers):
    layer one on the inputs, layer two on layer one's output, the head's one column. -/
def modelV (agg : FVec Ideal SN .f32 → FVec Ideal SN .f32) (x : FVec Ideal SN .f32)
    (W1l : FVec Ideal SW .f32) (b1 : Fin 128 → EReal) (W1r : FVec Ideal SW .f32)
    (W2l : FVec Ideal SW .f32) (b2 : Fin 128 → EReal) (W2r : FVec Ideal SW .f32)
    (wo : Fin 128 → EReal) (bo : EReal) : FVec Ideal SO .f32 :=
  outV (layerV (agg (layerV (agg x) x W1l b1 W1r)) (layerV (agg x) x W1l b1 W1r) W2l b2 W2r) wo bo

theorem layerV_apply (a x : FVec Ideal SN .f32) (Wl : FVec Ideal SW .f32) (b : Fin 128 → EReal) (Wr : FVec Ideal SW .f32)
    (n : Fin 50000) (j : Fin 128) :
    layerV a x Wl b Wr (ix2 n j)
      = max ((∑ k : Fin 128, a (ix2 n k) * Wl (ix2 k j) + b j) + ∑ k : Fin 128, x (ix2 n k) * Wr (ix2 k j))
          (Ideal.ofBits .f32 0x00000000#32) := rfl

theorem headV_apply (a h : FVec Ideal SN .f32) (Wl : FVec Ideal SW .f32) (b : Fin 128 → EReal) (Wr : FVec Ideal SW .f32)
    (Wp : FVec Ideal SW .f32) (bp : Fin 128 → EReal) (n : Fin 50000) (j : Fin 128) :
    headV a h Wl b Wr Wp bp (ix2 n j) = (∑ k : Fin 128, layerV a h Wl b Wr (ix2 n k) * Wp (ix2 k j)) + bp j := rfl

theorem outV_apply (h : FVec Ideal SN .f32) (wo : Fin 128 → EReal) (bo : EReal) (n : Fin 50000) :
    outV h wo bo (ix1 n) = (∑ k : Fin 128, h (ix2 n k) * wo k) + bo := rfl

/-- Column `0` of the head over a padded weight whose column `0` is `wo` and a padded bias whose entry `0` is `bo`
    is the result. -/
theorem headV_col0 (a h : FVec Ideal SN .f32) (Wl : FVec Ideal SW .f32) (b : Fin 128 → EReal) (Wr : FVec Ideal SW .f32)
    (Wp : FVec Ideal SW .f32) (bp : Fin 128 → EReal) (wo : Fin 128 → EReal) (bo : EReal)
    (hW : ∀ k : Fin 128, Wp (ix2 k (0 : Fin 128)) = wo k) (hb : bp (0 : Fin 128) = bo) (n : Fin 50000) :
    headV a h Wl b Wr Wp bp (ix2 n (0 : Fin 128)) = outV (layerV a h Wl b Wr) wo bo (ix1 n) := by
  rw [headV_apply, outV_apply, hb]
  exact congrArg (· + bo) (Finset.sum_congr rfl fun k _ => by rw [hW k])

end Sage

end
-- ==== Proof.HostReads.lean ====
import proofs.«177558_j77171972374887_1_alg».proof.Proof.Gen.KernelIdeal.Frame
import proofs.«177558_j77171972374887_1_alg».proof.Proof.KDefs
import proofs.«177558_j77171972374887_1_alg».proof.Proof.Spec
import Idealize.ShloMosaic.Lib.StableHlo.Run

noncomputable section

open scoped BigOperators

namespace Cert.KernelIdeal.Sage

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The host stretches, over any buffer contents

Each stretch of host operations is a fold over the buffer contents it starts from. Read at one buffer, the fold
is either the contents it started from (no operation of the stretch writes that buffer) or the composition of
the operations that lead to it, applied to the contents of the buffers they read. Both are stated here over an
arbitrary valuation `V`, so that nothing but the stretch's own operations is ever opened. -/

/-- `after ops V b = V b` for a literal stretch `ops` none of whose operations writes the literal reference `b`:
    every operation writes exactly its result buffer, and that is another reference than `b`. -/
local macro "not_written " ops:ident b:term : tactic => `(tactic| (
  refine StableHlo.after_of_forall_not_mem (b := Proc.devRef .tc $b) _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Stretches

variable (V : Valuation τ sig (Elt F))

/-- The first stretch takes row 0 of the edge list. -/
theorem ops0_v1 : StableHlo.after hostOps0 V (Proc.devRef .tc main_v1) = srcK (V (Proc.devRef .tc main_arg1)) := by
  after_results_simp <;> rfl

/-- The first stretch takes row 1 of the edge list. -/
theorem ops0_v3 : StableHlo.after hostOps0 V (Proc.devRef .tc main_v3) = dstK (V (Proc.devRef .tc main_arg1)) := by
  after_results_simp <;> rfl

/-- The first stretch reshapes the first layer's bias into a one-row matrix. -/
theorem ops0_v4 : StableHlo.after hostOps0 V (Proc.devRef .tc main_v4) = rowK (V (Proc.devRef .tc main_arg3)) := by
  after_results_simp <;> rfl

/-- The first stretch reshapes the second layer's bias into a one-row matrix. -/
theorem ops0_v5 : StableHlo.after hostOps0 V (Proc.devRef .tc main_v5) = rowK (V (Proc.devRef .tc main_arg6)) := by
  after_results_simp <;> rfl

/-- The first stretch writes the head's weight column into column 0 of a zero square matrix. -/
theorem ops0_v9 : StableHlo.after hostOps0 V (Proc.devRef .tc main_v9) = woutPadK (V (Proc.devRef .tc main_arg8)) := by
  after_results_simp <;> rfl

/-- The first stretch writes the head's bias into entry (0, 0) of a zero row. -/
theorem ops0_v15 : StableHlo.after hostOps0 V (Proc.devRef .tc main_v15) = boutPadK (V (Proc.devRef .tc main_arg9)) := by
  after_results_simp <;> rfl

/-- The first stretch ends with the neighbour mean of the input features over the edge list. -/
theorem ops0_v33 : StableHlo.after hostOps0 V (Proc.devRef .tc main_v33)
    = aggK (V (Proc.devRef .tc main_arg0)) (V (Proc.devRef .tc main_arg1)) := by
  after_results_simp <;> rfl

/-- The second stretch is the neighbour mean again, of the first layer's output, over the two rows of the edge
    list that the first stretch left behind. -/
theorem ops1_v52 (ei : IVec S2x800000 32) (h1 : V (Proc.devRef .tc main_v1) = srcK ei) (h3 : V (Proc.devRef .tc main_v3) = dstK ei) :
    StableHlo.after hostOps1 V (Proc.devRef .tc main_v52) = aggK (V (Proc.devRef .tc main_v34)) ei := by
  after_results_simp
  rw [h1, h3]
  rfl

/-- The last stretch takes column 0 of the second kernel's result and drops the unit axis. -/
theorem ops2_v55 : StableHlo.after hostOps2 V (Proc.devRef .tc main_v55)
    = shapeCast _ (extractStridedSlice S50000x1 ![0, 0] (V (Proc.devRef .tc main_v53)) slices_S50000x128_S50000x1_0_0) shapeCasts_S50000x1_S50000 := by
  after_results <;> rfl

end Stretches

/-! ## The edge list's rows at the first kernel's exit

The first stretch computes them; the first kernel owns neither buffer, so they are still there when it ends. -/

theorem W2_v1 (c : Dev nD) : W2 m ρ c (Proc.devRef .tc main_v1) = srcK (m ((c : Thread nD τ).loc main_arg1)) :=
  (W2_of_ne m ρ c main_v1 (by decide)).trans (ops0_v1 (W0 m ρ c))

theorem W2_v3 (c : Dev nD) : W2 m ρ c (Proc.devRef .tc main_v3) = dstK (m ((c : Thread nD τ).loc main_arg1)) :=
  (W2_of_ne m ρ c main_v3 (by decide)).trans (ops0_v3 (W0 m ρ c))

/-! ## What the first kernel finds in its operands -/

theorem V1_arg0 (c : Dev nD) : V1 m ρ c main_arg0 = (m ((c : Thread nD τ).loc main_arg0)) :=
  calc V1 m ρ c main_arg0
    _ = W0 m ρ c (Proc.devRef .tc main_arg0) := by not_written hostOps0 main_arg0
    _ = m ((c : Thread nD τ).loc main_arg0) := rfl
theorem V1_arg2 (c : Dev nD) : V1 m ρ c main_arg2 = (m ((c : Thread nD τ).loc main_arg2)) :=
  calc V1 m ρ c main_arg2
    _ = W0 m ρ c (Proc.devRef .tc main_arg2) := by not_written hostOps0 main_arg2
    _ = m ((c : Thread nD τ).loc main_arg2) := rfl
theorem V1_arg4 (c : Dev nD) : V1 m ρ c main_arg4 = (m ((c : Thread nD τ).loc main_arg4)) :=
  calc V1 m ρ c main_arg4
    _ = W0 m ρ c (Proc.devRef .tc main_arg4) := by not_written hostOps0 main_arg4
    _ = m ((c : Thread nD τ).loc main_arg4) := rfl
theorem V1_v4 (c : Dev nD) : V1 m ρ c main_v4 = rowK (m ((c : Thread nD τ).loc main_arg3)) :=
  ops0_v4 (W0 m ρ c)
theorem V1_v33 (c : Dev nD) : V1 m ρ c main_v33 = aggK (m ((c : Thread nD τ).loc main_arg0)) (m ((c : Thread nD τ).loc main_arg1)) :=
  ops0_v33 (W0 m ρ c)

/-! ## The first kernel's result array, and what the second kernel finds in its operands -/

theorem V2_v34 (c : Dev nD) : V2 m ρ c main_v34 = (dat0 (V1 m ρ) c).arrAt 5 cfg0.N := W2_arr m ρ c 5
theorem V3_v34 (c : Dev nD) : V3 m ρ c main_v34 = V2 m ρ c main_v34 := by not_written hostOps1 main_v34
theorem V3_v52 (c : Dev nD) : V3 m ρ c main_v52 = aggK (V2 m ρ c main_v34) (m ((c : Thread nD τ).loc main_arg1)) :=
  ops1_v52 (W2 m ρ c) (m ((c : Thread nD τ).loc main_arg1)) (W2_v1 m ρ c) (W2_v3 m ρ c)
theorem V3_arg5 (c : Dev nD) : V3 m ρ c main_arg5 = (m ((c : Thread nD τ).loc main_arg5)) :=
  calc V3 m ρ c main_arg5
    _ = W2 m ρ c (Proc.devRef .tc main_arg5) := by not_written hostOps1 main_arg5
    _ = W1 m ρ c (Proc.devRef .tc main_arg5) := W2_of_ne m ρ c main_arg5 (by decide)
    _ = W0 m ρ c (Proc.devRef .tc main_arg5) := by not_written hostOps0 main_arg5
    _ = m ((c : Thread nD τ).loc main_arg5) := rfl
theorem V3_arg7 (c : Dev nD) : V3 m ρ c main_arg7 = (m ((c : Thread nD τ).loc main_arg7)) :=
  calc V3 m ρ c main_arg7
    _ = W2 m ρ c (Proc.devRef .tc main_arg7) := by not_written hostOps1 main_arg7
    _ = W1 m ρ c (Proc.devRef .tc main_arg7) := W2_of_ne m ρ c main_arg7 (by decide)
    _ = W0 m ρ c (Proc.devRef .tc main_arg7) := by not_written hostOps0 main_arg7
    _ = m ((c : Thread nD τ).loc main_arg7) := rfl
theorem V3_v5 (c : Dev nD) : V3 m ρ c main_v5 = rowK (m ((c : Thread nD τ).loc main_arg6)) :=
  calc V3 m ρ c main_v5
    _ = W2 m ρ c (Proc.devRef .tc main_v5) := by not_written hostOps1 main_v5
    _ = W1 m ρ c (Proc.devRef .tc main_v5) := W2_of_ne m ρ c main_v5 (by decide)
    _ = rowK (m ((c : Thread nD τ).loc main_arg6)) := ops0_v5 (W0 m ρ c)
theorem V3_v9 (c : Dev nD) : V3 m ρ c main_v9 = woutPadK (m ((c : Thread nD τ).loc main_arg8)) :=
  calc V3 m ρ c main_v9
    _ = W2 m ρ c (Proc.devRef .tc main_v9) := by not_written hostOps1 main_v9
    _ = W1 m ρ c (Proc.devRef .tc main_v9) := W2_of_ne m ρ c main_v9 (by decide)
    _ = woutPadK (m ((c : Thread nD τ).loc main_arg8)) := ops0_v9 (W0 m ρ c)
theorem V3_v15 (c : Dev nD) : V3 m ρ c main_v15 = boutPadK (m ((c : Thread nD τ).loc main_arg9)) :=
  calc V3 m ρ c main_v15
    _ = W2 m ρ c (Proc.devRef .tc main_v15) := by not_written hostOps1 main_v15
    _ = W1 m ρ c (Proc.devRef .tc main_v15) := W2_of_ne m ρ c main_v15 (by decide)
    _ = boutPadK (m ((c : Thread nD τ).loc main_arg9)) := ops0_v15 (W0 m ρ c)

/-! ## The program's result: column 0 of the second kernel's result array -/

theorem W5_v55 (c : Dev nD) : W5 m ρ c (Proc.devRef .tc main_v55)
    = shapeCast _ (extractStridedSlice S50000x1 ![0, 0] ((dat1 (V3 m ρ) c).arrAt 7 cfg1.N) slices_S50000x128_S50000x1_0_0) shapeCasts_S50000x1_S50000 :=
  (ops2_v55 (W4 m ρ c)).trans
    (congrArg (fun a => shapeCast _ (extractStridedSlice S50000x1 ![0, 0] a slices_S50000x128_S50000x1_0_0) shapeCasts_S50000x1_S50000)
      (W4_arr m ρ c 7))

end Cert.KernelIdeal.Sage

end
-- ==== Proof.Region0Value.lean ====
import proofs.«177558_j77171972374887_1_alg».proof.Proof.Gen.KernelIdeal.Frame
import proofs.«177558_j77171972374887_1_alg».proof.Proof.KDefs
import proofs.«177558_j77171972374887_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Sage

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

namespace FirstKernel

/-! ## The matrix product of the body at an index

The body multiplies a 2000 × 128 block by a 128 × 128 weight, contracting the block's columns with the
weight's rows. Read at row `p`, column `q`, into a zero accumulator, it is the sum over the 128
contracted positions. The four facts below say which coordinate of each operand the contraction reads. -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block-by-weight product into the zero accumulator, at row `p` and column `q`. -/
theorem matmul_at {φ₁ φ₂ : FTy} (a : FVec Ideal S2000x128 φ₁) (w : FVec Ideal S128x128 φ₂) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row spread over the 2000 rows of a block: every row reads the one row there is. -/
theorem bias_at (b : FVec Ideal S1x128 .f32) (p : Fin 2000) (q : Fin 128) :
    broadcastTo S2000x128 (shapeCast S1x128 b shapeCasts_S1x128_S1x128) broadcasts_S1x128_S2000x128 (ix2 p q) = b (ix2 (0 : Fin 1) q) := by
  rw [shapeCast_self]
  refine broadcastTo_apply b broadcasts_S1x128_S2000x128 (ix2 p q) (ix2 (0 : Fin 1) q) (fun a => ?_)
  match a with
  | ⟨0, _⟩ => show (0 : Nat) = if (1 : Nat) = 1 then 0 else p.val; rw [if_pos rfl]
  | ⟨1, _⟩ => show q.val = if (128 : Nat) = 1 then 0 else q.val; rw [if_neg (by decide)]

/-- WHAT THE BODY COMPUTES at row `p`, column `q` of its blocks: the mean block times the left weight plus the
    bias, plus the feature block times the right weight, cut below at zero. The narrowing to the short format
    before each product is the identity on extended reals. -/
theorem pay_at (x0 x1 : Vec Ideal S2000x128 .f32) (wl wr : Vec Ideal S128x128 .f32) (b : Vec Ideal S1x128 .f32)
    (p : Fin 2000) (q : Fin 128) :
    k0_pay1 (F := Ideal) x0 x1 wl wr b (ix2 p q)
      = max ((∑ k : Fin 128, x0 (ix2 p k) * wl (ix2 k q) + b (ix2 (0 : Fin 1) q)) + ∑ k : Fin 128, x1 (ix2 p k) * wr (ix2 k q))
          (Ideal.ofBits .f32 0x00000000#32) := by
  unfold k0_pay1
  simp only [maximumf_apply, addf_apply, broadcast_apply]
  rw [matmul_at, matmul_at, bias_at, shapeCast_self]
  simp only [truncf_apply]
  rfl

variable (V : (c : Dev nD) → (b : Ref sig .tc) → Buf (Elt Ideal) ((c : Thread nD τ).loc b))
/-! ## From the blocks to the arrays

The grid has 25 points. At point `t` the two row-blocked inputs and the output hold rows
`2000 * t` to `2000 * t + 1999` of their arrays; the two weights and the bias row are fetched whole. -/

theorem origin_eq : (![0, 0] : Fin 2 → Nat) = fun _ => 0 :=
  funext fun a => by match a with | ⟨0, _⟩ => rfl | ⟨1, _⟩ => rfl

/-- The block each window holds at point `t`: block `t` along the rows for the row-blocked windows, the
    only block there is for the weights and the bias. Decided over the 25 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node whose features are row `p` of block `t`. -/
def node (t : Fin cfg0.N) (p : Fin 2000) : Fin 50000 :=
  ⟨2000 * t.val + p.val, by have h : t.val < 25 := lt_of_lt_of_eq t.isLt N_0; omega⟩

theorem node_val (t : Fin cfg0.N) (p : Fin 2000) : (node t p).val = 2000 * t.val + p.val := rfl

/-- Row `p` of the mean block at point `t` is the means' row of node `node t p`. -/
theorem iblk_mean (c : Dev nD) (t : Fin cfg0.N) (p : Fin 2000) (k : Fin 128) :
    (iblk0 V c 0 t : Vec Ideal S2000x128 .f32) (ix2 p k) = V c main_v33 (ix2 (node t p) k) := by
  obtain ⟨e0, e1, -⟩ := block_index t
  unfold iblk0
  rw [View.read_apply]
  show V c main_v33 _ = V c main_v33 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- Row `p` of the feature block at point `t` is the features' row of node `node t p`. -/
theorem iblk_feat (c : Dev nD) (t : Fin cfg0.N) (p : Fin 2000) (k : Fin 128) :
    (iblk0 V c 1 t : Vec Ideal S2000x128 .f32) (ix2 p k) = V c main_arg0 (ix2 (node t p) k) := by
  obtain ⟨-, -, e0, e1, -⟩ := block_index t
  unfold iblk0
  rw [View.read_apply]
  show V c main_arg0 _ = V c main_arg0 _
  congr 1
  funext a
  apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- The left weight's block is the whole left weight, at every point. -/
theorem iblk_wl (c : Dev nD) (t : Fin cfg0.N) (k q : Fin 128) :
    (iblk0 V c 2 t : Vec Ideal S128x128 .f32) (ix2 k q) = V c main_arg2 (ix2 k q) := by
  obtain ⟨-, -, -, -, e0, e1, -⟩ := block_index t
  unfold iblk0
  rw [View.read_apply]
  show V c main_arg2 _ = V c main_arg2 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias block is the whole bias row, at every point. -/
theorem iblk_bias (c : Dev nD) (t : Fin cfg0.N) (q : Fin 128) :
    (iblk0 V c 3 t : Vec Ideal S1x128 .f32) (ix2 (0 : Fin 1) q) = V c main_v4 (ix2 (0 : Fin 1) q) := by
  obtain ⟨-, -, -, -, -, -, e0, e1, -⟩ := block_index t
  unfold iblk0
  rw [View.read_apply]
  show V c main_v4 _ = V c main_v4 _
  congr 1
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 128 + 1 * q.val = q.val; rw [e1]; omega

/-- The right weight's block is the whole right weight, at every point. -/
theorem iblk_wr (c : Dev nD) (t : Fin cfg0.N) (k q : Fin 128) :
    (iblk0 V c 4 t : Vec Ideal S128x128 .f32) (ix2 k q) = V c main_arg4 (ix2 k q) := by
  obtain ⟨-, -, -, -, -, -, -, -, e0, e1, -⟩ := block_index t
  unfold iblk0
  rw [View.read_apply]
  show V c main_arg4 _ = V c main_arg4 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The output's block at point `t` sits at rows `2000 * t` on. -/
theorem out_emb (t : Fin cfg0.N) (p : Fin 2000) (q : Fin 128) :
    ((cfg0.win 5).blk t).view.emb (ix2 p q) = (ix2 (node t p) q : S50000x128.Idx) := by
  obtain ⟨-, -, -, -, -, -, -, -, -, -, e0, e1⟩ := block_index t
  funext a
  apply Fin.ext
  match a with
  | ⟨0, _⟩ => show win0_5.index t (0 : Fin 2) * 2000 + 1 * p.val = 2000 * t.val + p.val; rw [e0]; omega
  | ⟨1, _⟩ => show win0_5.index t (1 : Fin 2) * 128 + 1 * q.val = q.val; rw [e1]; omega

/-- WHAT POINT `t` WRITES BACK is block `t` of the layer of the arrays the region is entered with. -/
theorem flushed_eq (c : Dev nD) (t : Fin cfg0.N) :
    (dat0 (F := Ideal) V c).flushed 5 t = ((cfg0.win 5).blk t).view.read (Elt Ideal)
      (Sage.layerV (V c main_v33) (V c main_arg0) (V c main_arg2) (fun j => V c main_v4 (ix2 (0 : Fin 1) j)) (V c main_arg4)) := by
  show (cfg0.win 5).cut (grid0.coords t) ((dat0 V c).after 5 t) = _
  rw [after0_5]
  unfold out0_5
  rw [View.canon_unit_zero origin_eq]
  simp only [View.ld_unit_zero (S := S2000x128) origin_eq, View.ld_unit_zero (S := S128x128) origin_eq,
    View.ld_unit_zero (S := S1x128) origin_eq]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
      = Sage.layerV (V c main_v33) (V c main_arg0) (V c main_arg2) (fun j => V c main_v4 (ix2 (0 : Fin 1) j)) (V c main_arg4)
          (((cfg0.win 5).blk t).view.emb (ix2 p q))
  refine (pay_at _ _ _ _ _ p q).trans ?_
  rw [out_emb, Sage.layerV_apply]
  simp only [iblk_mean, iblk_feat, iblk_wl, iblk_bias, iblk_wr]

/-- A node-by-feature index is in point `t`'s output block iff each coordinate is in the block's range. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v34).slice (win0_5.rect t)).set ↔ _
  rw [View.set_slice_whole, Rect.mem_set_unit]
  exact Iff.rfl

/-- Every node's row is written back by some point: node `n` by point `n / 2000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < cfg0.N := by rw [show cfg0.N = 25 from N_0]; omega
  obtain ⟨-, -, -, -, -, -, -, -, -, -, e0, e1⟩ := block_index ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]
    omega

/-- THE FIRST KERNEL'S RESULT ARRAY after its 25 grid points, whatever the region is entered with. -/
theorem arr0 (c : Dev nD) :
    (dat0 (F := Ideal) V c).arrAt 5 cfg0.N
      = Sage.layerV (V c main_v33) (V c main_arg0) (V c main_arg2) (fun j => V c main_v4 (ix2 (0 : Fin 1) j)) (V c main_arg4) :=
  (dat0 (F := Ideal) V c).arrAt_eq_of_cover 5 _ (fun t _ => flushed_eq V c t) covered

end FirstKernel

end Cert.KernelIdeal.Sage
end
-- ==== Proof.Region1Value.lean ====
import proofs.«177558_j77171972374887_1_alg».proof.Proof.Gen.KernelIdeal.Frame
import proofs.«177558_j77171972374887_1_alg».proof.Proof.KDefs
import proofs.«177558_j77171972374887_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Sage

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

namespace SecondKernel

/-! ## One matrix product of the body at an index

The body's three products share one set of dimension numbers: the left operand's columns are contracted with the right
operand's rows. Entry (p, q) of such a product into a zero accumulator is the sum over the 128 shared coordinates. -/

/-- The left operand is read at the result's row. -/
theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted coordinate. -/
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contracted coordinate. -/
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand is read at the result's column. -/
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block-by-weight product into the zero accumulator, entry by entry. -/
theorem matmul_zero_apply {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's arithmetic at an index

The body computes, on a block of 2000 nodes: the layer (mean term and bias, then the root term, then the maximum with
zero) and, on the layer's result, the head's product and bias row. The roundings to the narrow format are the identity on
the extended reals. -/

/-- Entry (p, q) of what the body stores, from the entries of the blocks it loaded. -/
theorem pay_apply (x0 x1 : Vec Ideal S2000x128 .f32) (wl wr : Vec Ideal S128x128 .f32) (b : Vec Ideal S1x128 .f32)
    (wp : Vec Ideal S128x128 .f32) (bp : Vec Ideal S1x128 .f32) (p : Fin 2000) (q : Fin 128) :
    k1_pay1 (F := Ideal) x0 x1 wl wr b wp bp (ix2 p q)
      = (∑ k : Fin 128, max ((∑ k' : Fin 128, x0 (ix2 p k') * wl (ix2 k' k) + b (ix2 (0 : Fin 1) k))
            + ∑ k' : Fin 128, x1 (ix2 p k') * wr (ix2 k' k)) (Ideal.ofBits .f32 0x00000000#32) * wp (ix2 k q))
          + bp (ix2 (0 : Fin 1) q) := by
  unfold k1_pay1
  simp only [shapeCast_self]
  rw [addf_apply, matmul_zero_apply, broadcastTo_1b_ab_apply]
  refine congrArg (· + bp (ix2 (0 : Fin 1) q)) (Finset.sum_congr rfl fun k _ => ?_)
  rw [truncf_apply, truncf_apply, maximumf_apply, addf_apply, addf_apply, matmul_zero_apply, matmul_zero_apply,
    broadcastTo_1b_ab_apply, broadcast_apply]
  rfl

/-- With the loaded blocks being rows `2000 * r + ·` of the two node arrays, and the weights and bias rows whole, entry
    `y` of the stored block is the head's entry at the node `2000 * r + y 0`, column `y 1`. -/
theorem pay_eq_headV (A H : FVec Ideal Sage.SN .f32) (Wl Wr Wp : FVec Ideal Sage.SW .f32) (B Bp : Vec Ideal S1x128 .f32)
    (x0 x1 : Vec Ideal S2000x128 .f32) (wl wr wp : Vec Ideal S128x128 .f32) (b bp : Vec Ideal S1x128 .f32) (r : ℕ)
    (y : S2000x128.Idx) (i : S50000x128.Idx)
    (hi0 : (i 0).val = 2000 * r + (y 0).val) (hi1 : (i 1).val = (y 1).val)
    (h0 : ∀ (y' : S2000x128.Idx) (k : S50000x128.Idx), (k 0).val = 2000 * r + (y' 0).val → (k 1).val = (y' 1).val → x0 y' = A k)
    (h1 : ∀ (y' : S2000x128.Idx) (k : S50000x128.Idx), (k 0).val = 2000 * r + (y' 0).val → (k 1).val = (y' 1).val → x1 y' = H k)
    (hl : wl = Wl) (hb : b = B) (hr : wr = Wr) (hp : wp = Wp) (hbp : bp = Bp) :
    k1_pay1 (F := Ideal) x0 x1 wl wr b wp bp y
      = Sage.headV A H Wl (fun j => B (ix2 (0 : Fin 1) j)) Wr Wp (fun j => Bp (ix2 (0 : Fin 1) j)) i := by
  subst hl hb hr hp hbp
  obtain ⟨p, q, rfl⟩ : ∃ (p : Fin 2000) (q : Fin 128), y = ix2 p q := ⟨y 0, y 1, eq_ix2 y⟩
  obtain ⟨n, q', rfl⟩ : ∃ (n : Fin 50000) (q' : Fin 128), i = ix2 n q' := ⟨i 0, i 1, eq_ix2 i⟩
  obtain rfl : q' = q := Fin.ext hi1
  rw [pay_apply, Sage.headV_apply]
  refine congrArg (· + bp (ix2 (0 : Fin 1) q')) (Finset.sum_congr rfl fun k _ => ?_)
  rw [Sage.layerV_apply]
  have e0 : ∀ k' : Fin 128, x0 (ix2 p k') = A (ix2 n k') := fun k' => h0 (ix2 p k') (ix2 n k') hi0 rfl
  have e1 : ∀ k' : Fin 128, x1 (ix2 p k') = H (ix2 n k') := fun k' => h1 (ix2 p k') (ix2 n k') hi0 rfl
  simp only [e0, e1]

/-! ## From blocks to the array

Point `t` of the grid reads rows `2000 t … 2000 t + 1999` of the two node arrays and the weights and bias rows whole, and
writes back rows `2000 t … 2000 t + 1999` of the result; the 25 points cover the 50000 nodes. -/

theorem hz : (![0, 0] : Fin 2 → Nat) = fun _ => 0 := funext fun a => by fin_cases a <;> rfl

/-- The blocks' index maps over the grid: the node arrays' and the result's blocks move with the point along the rows, the
    weights' and the bias rows' blocks stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The block of the neighbour means at point `t` is their rows from `2000 t`. -/
theorem means_rows (c : Dev nD) (t : Fin cfg1.N) (y : S2000x128.Idx) (k : S50000x128.Idx)
    (hk0 : (k 0).val = 2000 * t.val + (y 0).val) (hk1 : (k 1).val = (y 1).val) :
    (iblk1 V c 0 t : Vec Ideal S2000x128 .f32) y = (V c main_v52 : S50000x128.Idx → EReal) k := by
  obtain ⟨e0, e1, -⟩ := idx_facts t
  unfold iblk1
  rw [View.read_apply]
  show V c main_v52 _ = V c main_v52 _
  refine congrArg (V c main_v52) (funext fun a => Fin.ext ?_)
  match a with
  | ⟨0, _⟩ => show win1_0.index t (0 : Fin 2) * 2000 + 1 * (y 0).val = (k 0).val; rw [e0, hk0]; omega
  | ⟨1, _⟩ => show win1_0.index t (1 : Fin 2) * 128 + 1 * (y 1).val = (k 1).val; rw [e1, hk1]; omega

/-- The block of the hidden array at point `t` is its rows from `2000 t`. -/
theorem hidden_rows (c : Dev nD) (t : Fin cfg1.N) (y : S2000x128.Idx) (k : S50000x128.Idx)
    (hk0 : (k 0).val = 2000 * t.val + (y 0).val) (hk1 : (k 1).val = (y 1).val) :
    (iblk1 V c 1 t : Vec Ideal S2000x128 .f32) y = (V c main_v34 : S50000x128.Idx → EReal) k := by
  obtain ⟨-, -, e0, e1, -⟩ := idx_facts t
  unfold iblk1
  rw [View.read_apply]
  show V c main_v34 _ = V c main_v34 _
  refine congrArg (V c main_v34) (funext fun a => Fin.ext ?_)
  match a with
  | ⟨0, _⟩ => show win1_1.index t (0 : Fin 2) * 2000 + 1 * (y 0).val = (k 0).val; rw [e0, hk0]; omega
  | ⟨1, _⟩ => show win1_1.index t (1 : Fin 2) * 128 + 1 * (y 1).val = (k 1).val; rw [e1, hk1]; omega

/-- The mean term's weight is fetched whole. -/
theorem wl_whole (c : Dev nD) (t : Fin cfg1.N) :
    (iblk1 V c 2 t : Vec Ideal S128x128 .f32) = (V c main_arg5 : S128x128.Idx → EReal) := by
  obtain ⟨-, -, -, -, e0, e1, -⟩ := idx_facts t
  funext y
  unfold iblk1
  rw [View.read_apply]
  show V c main_arg5 _ = V c main_arg5 y
  refine congrArg (V c main_arg5) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The layer's bias row is fetched whole. -/
theorem b_whole (c : Dev nD) (t : Fin cfg1.N) :
    (iblk1 V c 3 t : Vec Ideal S1x128 .f32) = (V c main_v5 : S1x128.Idx → EReal) := by
  obtain ⟨-, -, -, -, -, -, e0, e1, -⟩ := idx_facts t
  funext y
  unfold iblk1
  rw [View.read_apply]
  show V c main_v5 _ = V c main_v5 y
  refine congrArg (V c main_v5) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The root term's weight is fetched whole. -/
theorem wr_whole (c : Dev nD) (t : Fin cfg1.N) :
    (iblk1 V c 4 t : Vec Ideal S128x128 .f32) = (V c main_arg7 : S128x128.Idx → EReal) := by
  obtain ⟨-, -, -, -, -, -, -, -, e0, e1, -⟩ := idx_facts t
  funext y
  unfold iblk1
  rw [View.read_apply]
  show V c main_arg7 _ = V c main_arg7 y
  refine congrArg (V c main_arg7) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The head's weight is fetched whole. -/
theorem wp_whole (c : Dev nD) (t : Fin cfg1.N) :
    (iblk1 V c 5 t : Vec Ideal S128x128 .f32) = (V c main_v9 : S128x128.Idx → EReal) := by
  obtain ⟨-, -, -, -, -, -, -, -, -, -, e0, e1, -⟩ := idx_facts t
  funext y
  unfold iblk1
  rw [View.read_apply]
  show V c main_v9 _ = V c main_v9 y
  refine congrArg (V c main_v9) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The head's bias row is fetched whole. -/
theorem bp_whole (c : Dev nD) (t : Fin cfg1.N) :
    (iblk1 V c 6 t : Vec Ideal S1x128 .f32) = (V c main_v15 : S1x128.Idx → EReal) := by
  obtain ⟨-, -, -, -, -, -, -, -, -, -, -, -, e0, e1, -⟩ := idx_facts t
  funext y
  unfold iblk1
  rw [View.read_apply]
  show V c main_v15 _ = V c main_v15 y
  refine congrArg (V c main_v15) (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- WHAT POINT `t` WRITES BACK is block `t` of the head over the layer of the arrays the region is entered with. -/
theorem flushed_eq (c : Dev nD) (t : Fin cfg1.N) :
    (dat1 (F := Ideal) V c).flushed 7 t = ((cfg1.win 7).blk t).view.read (Elt Ideal)
      (Sage.headV (V c main_v52) (V c main_v34) (V c main_arg5) (fun j => V c main_v5 (ix2 (0 : Fin 1) j)) (V c main_arg7)
        (V c main_v9) (fun j => V c main_v15 (ix2 (0 : Fin 1) j))) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz]
  obtain ⟨-, -, -, -, -, -, -, -, -, -, -, -, -, -, e0, e1⟩ := idx_facts t
  funext j
  rw [View.read_apply]
  refine pay_eq_headV (V c main_v52) (V c main_v34) (V c main_arg5) (V c main_arg7) (V c main_v9) (V c main_v5) (V c main_v15)
    _ _ _ _ _ _ _ t.val ((cfg1.win 7).xinj (grid1.coords t) j) (((cfg1.win 7).blk t).view.emb j) ?_ ?_
    (means_rows V c t) (hidden_rows V c t) (wl_whole V c t) (b_whole V c t) (wr_whole V c t) (wp_whole V c t) (bp_whole V c t)
  · show win1_7.index t (0 : Fin 2) * 2000 + 1 * (j 0).val = 2000 * t.val + (j 0).val
    rw [e0]; omega
  · show win1_7.index t (1 : Fin 2) * 128 + 1 * (j 1).val = (j 1).val
    rw [e1]; omega

/-- An index of the result array is in point `t`'s block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v53).slice (win1_7.rect t)).set ↔ _
  rw [View.set_slice_whole, Rect.mem_set_unit]
  exact Iff.rfl

/-- Node `n`'s row is written back by point `n / 2000`. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  have ht : (i 0).val / 2000 < cfg1.N := by rw [hN]; omega
  refine ⟨⟨(i 0).val / 2000, ht⟩, flush1_7 _, ?_⟩
  rw [mem_blk]
  obtain ⟨-, -, -, -, -, -, -, -, -, -, -, -, -, -, e0, e1⟩ := idx_facts ⟨(i 0).val / 2000, ht⟩
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val ∧ (i 1).val < win1_7.index ⟨(i 0).val / 2000, ht⟩ (1 : Fin 2) * 128 + 128
    rw [e1]; omega

/-- THE SECOND KERNEL'S RESULT ARRAY after its 25 grid points, whatever the region is entered with. -/
theorem arr1 (c : Dev nD) :
    (dat1 (F := Ideal) V c).arrAt 7 cfg1.N
      = Sage.headV (V c main_v52) (V c main_v34) (V c main_arg5) (fun j => V c main_v5 (ix2 (0 : Fin 1) j)) (V c main_arg7)
          (V c main_v9) (fun j => V c main_v15 (ix2 (0 : Fin 1) j)) :=
  (dat1 (F := Ideal) V c).arrAt_eq_of_cover 7 _ (fun t _ => flushed_eq V c t) cover

end SecondKernel

end Cert.KernelIdeal.Sage
end
-- ==== Proof.LibScatterSet.lean ====
/-
  A set-scatter read at an index.

  `Host.scatter` is a left fold over the update positions in row-major order; each step overwrites the element its
  update lands on by the body's value. When the body returns the update (`x.at[…].set(v)`) and exactly one update
  index `j0` lands on a result index `i`, the scatter's element at `i` is the update at `j0`, whatever the operand
  held there: every other step leaves the element at `i` alone, and the step at `j0` writes `upd j0`.

  The fold fact is stated once for any step function read through any observation (`foldl_read_of_step`): if each
  step either sets the reading to `v`, at the one position `n0`, or leaves it, then the reading after the fold is `v`
  when `n0` is in the list and the start's reading otherwise.
-/
import Idealize.ShloMosaic.PureOps.ShapeOps

namespace Idealize.ShloMosaic

section ScatterSet

/-- A left fold read through `rd`, when every step either sets the reading to `v` (at the one position `n0`) or
    leaves it: the reading is `v` once `n0` has been met, else the start's. -/
theorem ScatterSet.foldl_read_of_step {β ι γ : Type} [DecidableEq ι] (g : β → ι → β) (rd : β → γ) (n0 : ι) (v : γ)
    (hg : ∀ r n, rd (g r n) = if n = n0 then v else rd r) (l : List ι) (r : β) :
    rd (l.foldl g r) = if n0 ∈ l then v else rd r := by
  induction l generalizing r with
  | nil => simp
  | cons n l ih =>
    rw [List.foldl_cons, ih, hg]
    by_cases hl : n0 ∈ l
    · rw [if_pos hl, if_pos (List.mem_cons_of_mem _ hl)]
    · rw [if_neg hl]
      by_cases hn : n = n0
      · rw [if_pos hn, if_pos (by rw [hn]; exact List.mem_cons_self)]
      · rw [if_neg hn, if_neg (by
          intro hm
          rcases List.mem_cons.1 hm with e | e
          · exact hn e.symm
          · exact hl e)]

variable {s si u : Shape} {α : Type} {w : Nat}

/-- A set-scatter (the body returns the update) read at a result index `i` that exactly one update index `j0`
    lands on is the update at `j0`. -/
theorem Host.scatter_set_apply (d : ScatterDims s si u) (x : s.Idx → α) (idx : IVec si w) (upd : u.Idx → α)
    (i : s.Idx) (j0 : u.Idx) (h0 : d.resultIdx? j0 idx = some i)
    (huniq : ∀ j, d.resultIdx? j idx = some i → j = j0) :
    Host.scatter d (fun _ b => b) x idx upd i = upd j0 := by
  unfold Host.scatter
  refine (ScatterSet.foldl_read_of_step _ (fun r : s.Idx → α => r i) (u.rowMajor j0) (upd j0) (fun r n => ?_) _ x).trans
    (if_pos (List.mem_finRange _))
  by_cases hn : n = u.rowMajor j0
  · subst hn
    simp only [Equiv.symm_apply_apply, h0, if_true]
  · simp only [if_neg hn]
    cases hres : d.resultIdx? (u.rowMajor.symm n) idx with
    | none => rfl
    | some i₁ =>
      have hne : i ≠ i₁ := by
        intro e
        subst e
        exact hn (by rw [← huniq _ hres, Equiv.apply_symm_apply])
      exact if_neg hne

end ScatterSet

end Idealize.ShloMosaic
-- ==== Proof.PadReads.lean ====
import proofs.«177558_j77171972374887_1_alg».proof.Proof.KDefs
import proofs.«177558_j77171972374887_1_alg».proof.Proof.LibScatterSet
import Idealize.ShloMosaic.Lib.ValueIdx
import Idealize.ShloMosaic.Lib.Pipeline.Value

noncomputable section

namespace Cert.KernelIdeal.Sage

open Cert.KernelIdeal Cert.KernelIdeal.Gen Idealize.ShloMosaic Idealize.ShloMosaic.ValueIdx

variable {F : FTy → Type} [FloatOps F]

/-! ### The column scatter: row `j` of the update lands on `(j, 0)` -/

/-- With every index word zero, the column scatter's window starts at 0 on both axes: axis 0 is not a scattered
    axis, and on axis 1 the start is the index word read signed. -/
theorem wout_start (idx : IVec S1 32) (hidx : ∀ k, idx k = 0#32) (j : S128.Idx) (a : Fin 2) :
    scatter_S128x128_S1_S128_0_1_1_0.start j idx a = 0 := by
  unfold ScatterDims.start
  split
  · rw [hidx]; rfl
  · rfl

/-- Update row `j` of the column scatter lands on `(j, 0)`: axis 0 is the update's one window axis, axis 1 is
    inserted. -/
theorem wout_resultIdx (idx : IVec S1 32) (hidx : ∀ k, idx k = 0#32) (j : S128.Idx) :
    scatter_S128x128_S1_S128_0_1_1_0.resultIdx? j idx = some (ix2 (j 0) (0 : Fin 128)) := by
  have hj : (j 0).val < 128 := (j 0).isLt
  unfold ScatterDims.resultIdx?
  rw [dif_pos (fun a => by
    rw [wout_start idx hidx j a]
    match a with
    | ⟨0, _⟩ =>
      have hs : S128x128.size (⟨0, by decide⟩ : Fin 2) = 128 := rfl
      rw [show scatter_S128x128_S1_S128_0_1_1_0.window j (⟨0, by decide⟩ : Fin 2) = (j 0).val from rfl, hs]
      omega
    | ⟨1, _⟩ =>
      have hs : S128x128.size (⟨1, by decide⟩ : Fin 2) = 128 := rfl
      rw [show scatter_S128x128_S1_S128_0_1_1_0.window j (⟨1, by decide⟩ : Fin 2) = 0 from rfl, hs]
      omega)]
  refine congrArg some (funext fun a => Fin.ext ?_)
  show (scatter_S128x128_S1_S128_0_1_1_0.start j idx a + scatter_S128x128_S1_S128_0_1_1_0.window j a).toNat = _
  rw [wout_start idx hidx j a]
  match a with
  | ⟨0, _⟩ =>
    rw [show scatter_S128x128_S1_S128_0_1_1_0.window j (⟨0, by decide⟩ : Fin 2) = (j 0).val from rfl]
    show _ = (j 0).val
    omega
  | ⟨1, _⟩ =>
    rw [show scatter_S128x128_S1_S128_0_1_1_0.window j (⟨1, by decide⟩ : Fin 2) = 0 from rfl]
    rfl

/-- Column 0 of the padded head weight is the head's weight column. -/
theorem woutPadK_col0 (wo : FVec F S128x1 .f32) (k : Fin 128) :
    woutPadK wo (ix2 k (0 : Fin 128)) = wo (ix2 k (0 : Fin 1)) := by
  unfold woutPadK
  refine (Host.scatter_set_apply _ _ _ _ (ix2 k (0 : Fin 128)) (ix1 k) ?_ ?_).trans ?_
  · exact wout_resultIdx _ (fun _ => rfl) (ix1 k)
  · intro j hj
    have hj' := (wout_resultIdx _ (fun _ => rfl) j).symm.trans hj
    have h0 : j 0 = k := congrFun (Option.some.inj hj') 0
    subst h0
    exact eq_ix1 j
  · -- the flattened column at `k` is the column matrix at `(k, 0)`: both sit at row-major position `k`
    refine shapeCast_apply wo _ (ix1 k) (ix2 k (0 : Fin 1)) ?_
    rw [Shape.rowMajor_val_two, Shape.rowMajor_val_one]
    show k.val * 1 + 0 = k.val
    omega

/-! ### The entry scatter: the one update lands on `(0, 0)` -/

/-- Both words of the entry scatter's index vector are zero. -/
theorem bout_idx (k : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 k = 0#32 := by
  obtain ⟨m, rfl⟩ : ∃ m : Fin 2, k = ix1 m := ⟨k 0, eq_ix1 k⟩
  fin_cases m <;> rfl

/-- With every index word zero, the entry scatter's window starts at 0 on both axes. -/
theorem bout_start (idx : IVec S2 32) (hidx : ∀ k, idx k = 0#32) (j : S_.Idx) (a : Fin 2) :
    scatter_S1x128_S2_S__n_01_01_0.start j idx a = 0 := by
  unfold ScatterDims.start
  split
  · rw [hidx]; rfl
  · rfl

/-- The entry scatter's one update lands on `(0, 0)`: both operand axes are inserted, so the window adds nothing. -/
theorem bout_resultIdx (idx : IVec S2 32) (hidx : ∀ k, idx k = 0#32) (j : S_.Idx) :
    scatter_S1x128_S2_S__n_01_01_0.resultIdx? j idx = some (ix2 (0 : Fin 1) (0 : Fin 128)) := by
  have hw : ∀ a : Fin 2, scatter_S1x128_S2_S__n_01_01_0.window j a = 0 := fun _ => rfl
  unfold ScatterDims.resultIdx?
  rw [dif_pos (fun a => by
    rw [bout_start idx hidx j a, hw a]
    match a with
    | ⟨0, _⟩ =>
      have hs : S1x128.size (⟨0, by decide⟩ : Fin 2) = 1 := rfl
      rw [hs]; omega
    | ⟨1, _⟩ =>
      have hs : S1x128.size (⟨1, by decide⟩ : Fin 2) = 128 := rfl
      rw [hs]; omega)]
  refine congrArg some (funext fun a => Fin.ext ?_)
  show (scatter_S1x128_S2_S__n_01_01_0.start j idx a + scatter_S1x128_S2_S__n_01_01_0.window j a).toNat = _
  rw [bout_start idx hidx j a, hw a]
  match a with
  | ⟨0, _⟩ => rfl
  | ⟨1, _⟩ => rfl

/-- Entry (0, 0) of the padded head bias is the head's bias. -/
theorem boutPadK_00 (bo : FVec F S1 .f32) :
    boutPadK bo (ix2 (0 : Fin 1) (0 : Fin 128)) = bo (ix1 (0 : Fin 1)) := by
  unfold boutPadK
  refine (Host.scatter_set_apply _ _ _ _ (ix2 (0 : Fin 1) (0 : Fin 128)) ix0 ?_ ?_).trans ?_
  · exact bout_resultIdx _ bout_idx ix0
  · intro j _
    exact eq_ix0 j
  · -- the scalar's one element is the one-element vector's: both sit at row-major position 0
    refine shapeCast_apply bo _ ix0 (ix1 (0 : Fin 1)) ?_
    rw [Shape.rowMajor_val_one]
    exact (Nat.lt_one_iff.1 (S_.rowMajor ix0).isLt).symm

end Cert.KernelIdeal.Sage

end
-- ==== Proof.KernelValue.lean ====
import proofs.«177558_j77171972374887_1_alg».proof.Proof.Gen.KernelIdeal.Frame
import proofs.«177558_j77171972374887_1_alg».proof.Proof.KDefs
import proofs.«177558_j77171972374887_1_alg».proof.Proof.Spec
import proofs.«177558_j77171972374887_1_alg».proof.Proof.HostReads
import proofs.«177558_j77171972374887_1_alg».proof.Proof.Region0Value
import proofs.«177558_j77171972374887_1_alg».proof.Proof.Region1Value
import proofs.«177558_j77171972374887_1_alg».proof.Proof.PadReads
import Idealize.ShloMosaic.Lib.Pipeline.Value

noncomputable section

open scoped BigOperators

namespace Cert.KernelIdeal.Sage

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-! ## Two layout reads -/

section Reads
variable {F : FTy → Type} [FloatOps F]

/-- The bias as a one-row matrix, read at `(0, j)`, is the bias at `j`. -/
theorem rowK_apply (b : FVec F S128 .f32) (j : Fin 128) : rowK b (ix2 (0 : Fin 1) j) = b (ix1 j) := by
  unfold rowK
  refine shapeCast_apply b shapeCasts_S128_S1x128 (ix2 (0 : Fin 1) j) (ix1 j) ?_
  rewrite [Shape.rowMajor_val_two, Shape.rowMajor_val_one]
  show j.val = 0 * 128 + j.val
  omega

/-- Column 0 of a 50000 × 128 array, flattened to one value per node, read at node `n`. -/
theorem col0_apply (H : FVec F S50000x128 .f32) (n : Fin 50000) :
    shapeCast _ (extractStridedSlice S50000x1 ![0, 0] H slices_S50000x128_S50000x1_0_0) shapeCasts_S50000x1_S50000 (ix1 n)
      = H (ix2 n (0 : Fin 128)) := by
  refine (shapeCast_apply _ shapeCasts_S50000x1_S50000 (ix1 n) (ix2 n (0 : Fin 1)) ?_).trans ?_
  · rewrite [Shape.rowMajor_val_two, Shape.rowMajor_val_one]
    show n.val * 1 + 0 = n.val
    omega
  · refine extractStridedSlice_apply _ H _ (ix2 n (0 : Fin 1)) (ix2 n (0 : Fin 128)) fun a => ?_
    match a with
    | ⟨0, _⟩ => show n.val = 0 + n.val; omega
    | ⟨1, _⟩ => rfl

end Reads

/-! ## The kernel program's result -/

variable (m : (ℓ : Loc nD τ sig) → Buf (Elt Ideal) ℓ) (ρ : Dev nD → PrngReg)

/-- THE KERNEL PROGRAM'S RESULT is the model over its own neighbour mean: the result buffer is column 0 of the second
    kernel's array, which is the head over the second layer of the first kernel's array, which is the first layer of the
    arguments; column 0 of the padded head reads only the head's real weight column and bias. -/
theorem kernel_value (c : Dev nD) :
    W5 m ρ c (Proc.devRef .tc main_v55)
      = Sage.modelV (fun f => aggK f (m ((c.tc : Thread nD τ).loc main_arg1))) (m ((c.tc : Thread nD τ).loc main_arg0))
      (m ((c.tc : Thread nD τ).loc main_arg2)) (fun j => m ((c.tc : Thread nD τ).loc main_arg3) (ix1 j)) (m ((c.tc : Thread nD τ).loc main_arg4))
      (m ((c.tc : Thread nD τ).loc main_arg5)) (fun j => m ((c.tc : Thread nD τ).loc main_arg6) (ix1 j)) (m ((c.tc : Thread nD τ).loc main_arg7))
      (fun k => m ((c.tc : Thread nD τ).loc main_arg8) (ix2 k (0 : Fin 1))) (m ((c.tc : Thread nD τ).loc main_arg9) (ix1 (0 : Fin 1))) := by
  rw [W5_v55, SecondKernel.arr1 (V3 m ρ) c, V3_v52, V3_v34, V3_arg5, V3_arg7, V3_v5, V3_v9, V3_v15, V2_v34, FirstKernel.arr0 (V1 m ρ) c,
    V1_v33, V1_arg0, V1_arg2, V1_arg4, V1_v4]
  funext i
  obtain ⟨n, rfl⟩ : ∃ n : Fin 50000, i = ix1 n := ⟨i 0, eq_ix1 i⟩
  rw [col0_apply]
  unfold Sage.modelV
  refine (Sage.headV_col0 _ _ _ _ _ _ _ _ _ (fun k => woutPadK_col0 _ k) (boutPadK_00 _) n).trans ?_
  simp only [rowK_apply]

end Cert.KernelIdeal.Sage

end
-- ==== Proof.RDefs.lean ====
/-
  The host-side arithmetic that surrounds the dense layers, named once so that it is carried, never opened.

  `srcR` / `dstR` are the two rows of the edge list. `aggR f ei` is the neighbour mean of a feature array
  `f`: gather the rows of `f` at the source nodes (a negative index first wrapped by the node count), add each
  gathered row into its destination node's row, and divide by the number of incoming edges, at least one.
-/
import proofs.«177558_j77171972374887_1_alg».proof.Proof.Gen.ReferenceIdeal

noncomputable section

namespace Cert.ReferenceIdeal.Sage

open Cert.ReferenceIdeal Cert.ReferenceIdeal.Gen Idealize.ShloMosaic

variable {F : FTy → Type} [FloatOps F]

/-- Row 0 of the edge list: each edge's source node. -/
def srcR (ei : IVec S2x800000 32) : IVec S800000 32 :=
  shapeCast _ (extractStridedSlice S1x800000 ![0, 0] ei slices_S2x800000_S1x800000_0_0) shapeCasts_S1x800000_S800000

/-- Row 1 of the edge list: each edge's destination node. -/
def dstR (ei : IVec S2x800000 32) : IVec S800000 32 :=
  shapeCast _ (extractStridedSlice S1x800000 ![1, 0] ei slices_S2x800000_S1x800000_1_0) shapeCasts_S1x800000_S800000

/-- The neighbour mean of `f` over the edge list `ei`. -/
def aggR (f : FVec F S50000x128 .f32) (ei : IVec S2x800000 32) : FVec F S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (dstR ei)) (Host.gather gather_S50000x128_S800000x1_S800000x128_1_0_n_n_0_1_1128 f (broadcastInDim S800000x1 ![0] bcast_S800000_S800000x1_0 (select (cmpi .slt (srcR ei) (broadcastInDim S800000 ![] bcast_S_S800000 (constantI S_ 32 0#32))) (addi (srcR ei) (broadcastInDim S800000 ![] bcast_S_S800000 (constantI S_ 32 50000#32))) (srcR ei))))) (broadcastInDim S50000x128 ![0, 1] bcast_S50000x1_S50000x128_0_1 (maximumf (Host.scatterAdd scatter_S50000x1_S800000x1_S800000x1_1_0_0_1 (broadcastInDim S50000x1 ![] bcast_S_S50000x1 (constant S_ .f32 0x00000000#32)) (broadcastInDim S800000x1 ![0] bcast_S800000_S800000x1_0 (dstR ei)) (broadcastInDim S800000x1 ![] bcast_S_S800000x1 (constant S_ .f32 0x3F800000#32))) (broadcastInDim S50000x1 ![] bcast_S_S50000x1 (constant S_ .f32 0x3F800000#32))))

end Cert.ReferenceIdeal.Sage

end
-- ==== Proof.RefValue.lean ====
import proofs.«177558_j77171972374887_1_alg».proof.Proof.Gen.ReferenceIdeal.Run
import proofs.«177558_j77171972374887_1_alg».proof.Proof.Gen.ReferenceIdeal.Read
import proofs.«177558_j77171972374887_1_alg».proof.Proof.RDefs
import proofs.«177558_j77171972374887_1_alg».proof.Proof.Spec

noncomputable section

open scoped BigOperators

namespace Cert.ReferenceIdeal.Sage

open Cert.ReferenceIdeal Cert.ReferenceIdeal.Gen Cert.ReferenceIdeal.Read Idealize.ShloMosaic Idealize.ShloMosaic.TcCoe Idealize.SL.Sem
open Idealize.ShloMosaic.ValueIdx

/-! ## The two neighbour means

The reference computes the neighbour mean twice, once over the input features and once over the first
layer's output. Each time it is the same chain of operations as the one named the neighbour mean of an
array over the edge list, so the two agree by unfolding the stages; nothing inside the gather or the
scatter-add is looked at. -/

section Mean
variable {F : FTy → Type} [FloatOps F]

/-- The first neighbour mean: over the input features. -/
theorem mean_one (x0 : (⟨S50000x128, .f32⟩ : BufTy).Contents (Elt F)) (x1 : (⟨S2x800000, .i32⟩ : BufTy).Contents (Elt F)) :
    val_main_v21 (F := F) x0 x1 = aggR (F := F) x0 x1 := by
  unfold val_main_v21 val_main_v20 val_main_v19 val_main_v18 val_main_cst_3 val_main_v17 val_main_v16 val_main_v15
    val_main_cst_2 val_main_v14 val_main_cst_1 val_main_v13 val_main_v12 val_main_v11 val_main_cst val_main_v10
    val_main_v9 val_main_v8 val_main_v7 val_main_v6 val_main_c_0 val_main_v5 val_main_v4 val_main_c val_main_v3
    val_main_v2 val_main_v1 val_main_v0 aggR srcR dstR
  rfl

/-- The second neighbour mean: the same chain over the first layer's output. -/
theorem mean_two (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v46 (F := F) x0 x1 x2 x3 x4 = aggR (F := F) (val_main_v28 (F := F) x0 x1 x2 x3 x4) x1 := by
  unfold val_main_v46 val_main_v45 val_main_v44 val_main_v43 val_main_cst_9 val_main_v42 val_main_v41 val_main_v40
    val_main_cst_8 val_main_v39 val_main_cst_7 val_main_v38 val_main_v37 val_main_v36 val_main_cst_6 val_main_v35
    val_main_v34 val_main_v33 val_main_v32 val_main_v31 val_main_c_5 val_main_v30 val_main_v29 val_main_c_4 val_main_v3
    val_main_v2 val_main_v1 val_main_v0 aggR srcR dstR
  rfl

end Mean

/-! ## Where each stage reads its operands

At output position (n, j) a contraction reads row n of its left operand and column j of its right one,
and the broadcast bias reads entry j. -/

theorem l22 (n : Fin 50000) (j k : Fin 128) : lidx_main_v22 (ix2 n j) k = ix2 n k :=
  funext fun a => Fin.ext (by match a with | ⟨0, _⟩ => rfl | ⟨1, _⟩ => rfl)
theorem r22 (n : Fin 50000) (j k : Fin 128) : ridx_main_v22 (ix2 n j) k = ix2 k j :=
  funext fun a => Fin.ext (by match a with | ⟨0, _⟩ => rfl | ⟨1, _⟩ => rfl)
theorem l26 (n : Fin 50000) (j k : Fin 128) : lidx_main_v26 (ix2 n j) k = ix2 n k :=
  funext fun a => Fin.ext (by match a with | ⟨0, _⟩ => rfl | ⟨1, _⟩ => rfl)
theorem r26 (n : Fin 50000) (j k : Fin 128) : ridx_main_v26 (ix2 n j) k = ix2 k j :=
  funext fun a => Fin.ext (by match a with | ⟨0, _⟩ => rfl | ⟨1, _⟩ => rfl)
theorem b24 (n : Fin 50000) (j : Fin 128) : idx_main_v23 (idx_main_v24 (ix2 n j)) = ix1 j :=
  funext fun a => Fin.ext (by match a with | ⟨0, _⟩ => rfl)
theorem l47 (n : Fin 50000) (j k : Fin 128) : lidx_main_v47 (ix2 n j) k = ix2 n k :=
  funext fun a => Fin.ext (by match a with | ⟨0, _⟩ => rfl | ⟨1, _⟩ => rfl)
theorem r47 (n : Fin 50000) (j k : Fin 128) : ridx_main_v47 (ix2 n j) k = ix2 k j :=
  funext fun a => Fin.ext (by match a with | ⟨0, _⟩ => rfl | ⟨1, _⟩ => rfl)
theorem l51 (n : Fin 50000) (j k : Fin 128) : lidx_main_v51 (ix2 n j) k = ix2 n k :=
  funext fun a => Fin.ext (by match a with | ⟨0, _⟩ => rfl | ⟨1, _⟩ => rfl)
theorem r51 (n : Fin 50000) (j k : Fin 128) : ridx_main_v51 (ix2 n j) k = ix2 k j :=
  funext fun a => Fin.ext (by match a with | ⟨0, _⟩ => rfl | ⟨1, _⟩ => rfl)
theorem b49 (n : Fin 50000) (j : Fin 128) : idx_main_v48 (idx_main_v49 (ix2 n j)) = ix1 j :=
  funext fun a => Fin.ext (by match a with | ⟨0, _⟩ => rfl)
/-- The final reshape drops the unit axis: entry n of the result is entry (n, 0) before it. -/
theorem i58 (n : Fin 50000) : idx_main_v58 (ix1 n) = ix2 n (0 : Fin 1) :=
  funext fun a => Fin.ext (by match a with | ⟨0, _⟩ => exact Nat.div_one _ | ⟨1, _⟩ => rfl)
theorem l54 (n : Fin 50000) (k : Fin 128) : lidx_main_v54 (ix2 n (0 : Fin 1)) k = ix2 n k :=
  funext fun a => Fin.ext (by match a with | ⟨0, _⟩ => rfl | ⟨1, _⟩ => rfl)
theorem r54 (n : Fin 50000) (k : Fin 128) : ridx_main_v54 (ix2 n (0 : Fin 1)) k = ix2 k (0 : Fin 1) :=
  funext fun a => Fin.ext (by match a with | ⟨0, _⟩ => rfl | ⟨1, _⟩ => rfl)
theorem b56 (n : Fin 50000) : idx_main_v55 (idx_main_v56 (ix2 n (0 : Fin 1))) = ix1 (0 : Fin 1) :=
  funext fun a => Fin.ext (by match a with | ⟨0, _⟩ => rfl)

/-! ## The two layers and the head -/

/-- The first hidden array is one layer over the input features and their neighbour mean. -/
theorem layer_one (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v28 (F := Ideal) x0 x1 x2 x3 x4
      = Sage.layerV (aggR (F := Ideal) x0 x1) x0 x2 (fun j => x3 (ix1 j)) x4 := by
  funext i
  obtain ⟨n, j, rfl⟩ : ∃ (n : Fin 50000) (j : Fin 128), i = ix2 n j := ⟨i 0, i 1, eq_ix2 i⟩
  rw [Sage.layerV_apply, val_main_v28_apply, val_main_v27_apply, val_main_v25_apply, val_main_v22_apply, val_main_v24_apply,
    val_main_v23_apply, val_main_v26_apply, val_main_call0_v0_apply, val_main_call0_cst_apply, mean_one]
  simp only [l22, r22, l26, r26, b24, Ideal.addf_def, Ideal.maximumf_def, Ideal.ofBits_def]

/-- The second hidden array is one layer over the first and its neighbour mean. -/
theorem layer_two (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v53 (F := Ideal) x0 x1 x2 x3 x4 x5 x6 x7
      = Sage.layerV (aggR (F := Ideal) (val_main_v28 (F := Ideal) x0 x1 x2 x3 x4) x1) (val_main_v28 (F := Ideal) x0 x1 x2 x3 x4)
          x5 (fun j => x6 (ix1 j)) x7 := by
  funext i
  obtain ⟨n, j, rfl⟩ : ∃ (n : Fin 50000) (j : Fin 128), i = ix2 n j := ⟨i 0, i 1, eq_ix2 i⟩
  rw [Sage.layerV_apply, val_main_v53_apply, val_main_v52_apply, val_main_v50_apply, val_main_v47_apply, val_main_v49_apply,
    val_main_v48_apply, val_main_v51_apply, val_main_call1_v0_apply, val_main_call1_cst_apply, mean_two]
  simp only [l47, r47, l51, r51, b49, Ideal.addf_def, Ideal.maximumf_def, Ideal.ofBits_def]

/-- The result is the head's one column over the second hidden array. -/
theorem head_out (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x1, .f32⟩ : BufTy).Contents (Elt Ideal))
    (x9 : (⟨S1, .f32⟩ : BufTy).Contents (Elt Ideal)) :
    val_main_v58 (F := Ideal) x0 x1 x2 x3 x4 x5 x6 x7 x8 x9
      = Sage.outV (val_main_v53 (F := Ideal) x0 x1 x2 x3 x4 x5 x6 x7) (fun k => x8 (ix2 k (0 : Fin 1))) (x9 (ix1 (0 : Fin 1))) := by
  funext i
  obtain ⟨n, rfl⟩ : ∃ n : Fin 50000, i = ix1 n := ⟨i 0, eq_ix1 i⟩
  rw [Sage.outV_apply, val_main_v58_apply, val_main_v57_apply, val_main_v54_apply, val_main_v56_apply, val_main_v55_apply]
  simp only [i58, l54, r54, b56, Ideal.addf_def]

/-- The reference's last stage is the whole model over the reference's own neighbour mean. -/
theorem stage_model (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x1, .f32⟩ : BufTy).Contents (Elt Ideal))
    (x9 : (⟨S1, .f32⟩ : BufTy).Contents (Elt Ideal)) :
    val_main_v58 (F := Ideal) x0 x1 x2 x3 x4 x5 x6 x7 x8 x9
      = Sage.modelV (fun f => aggR (F := Ideal) f x1) x0 x2 (fun j => x3 (ix1 j)) x4 x5 (fun j => x6 (ix1 j)) x7
          (fun k => x8 (ix2 k (0 : Fin 1))) (x9 (ix1 (0 : Fin 1))) := by
  rw [head_out, layer_two, layer_one]
  rfl

/-- The reference's result is the model over its own neighbour mean. -/
theorem ref_value (m : (ℓ : Loc nD τ sig) → Buf (Elt Ideal) ℓ) (c : Dev nD) :
    Cert.ReferenceIdeal.Value.res_main_v58 (F := Ideal) m c
      = Sage.modelV (fun f => aggR f (m ((c.tc : Thread nD τ).loc main_arg1))) (m ((c.tc : Thread nD τ).loc main_arg0))
      (m ((c.tc : Thread nD τ).loc main_arg2)) (fun j => m ((c.tc : Thread nD τ).loc main_arg3) (ix1 j)) (m ((c.tc : Thread nD τ).loc main_arg4))
      (m ((c.tc : Thread nD τ).loc main_arg5)) (fun j => m ((c.tc : Thread nD τ).loc main_arg6) (ix1 j)) (m ((c.tc : Thread nD τ).loc main_arg7))
      (fun k => m ((c.tc : Thread nD τ).loc main_arg8) (ix2 k (0 : Fin 1))) (m ((c.tc : Thread nD τ).loc main_arg9) (ix1 (0 : Fin 1))) :=
  (val_main_v58_eq m c).trans (stage_model _ _ _ _ _ _ _ _ _ _)

end Cert.ReferenceIdeal.Sage

end
-- ==== Proof.AggEq.lean ====
/-
  The two programs compute the neighbour mean by the same host operations: the kernel program's and the reference's
  chains are one function of the feature array and the edge list. Their dimension records are stated once per program
  but hold the same numbers, so the two names unfold to the same term.
-/
import proofs.«177558_j77171972374887_1_alg».proof.Proof.KDefs
import proofs.«177558_j77171972374887_1_alg».proof.Proof.RDefs

noncomputable section

namespace Cert.Proof.Sage

open Idealize.ShloMosaic

variable {F : FTy → Type} [FloatOps F]

/-- The gather's dimension numbers agree. -/
theorem gather_eq : Cert.KernelIdeal.gather_S50000x128_S800000x1_S800000x128_1_0_n_n_0_1_1128
    = Cert.ReferenceIdeal.gather_S50000x128_S800000x1_S800000x128_1_0_n_n_0_1_1128 := rfl

/-- The row scatter-add's dimension numbers agree. -/
theorem scatter_rows_eq : Cert.KernelIdeal.scatter_S50000x128_S800000x1_S800000x128_1_0_0_1
    = Cert.ReferenceIdeal.scatter_S50000x128_S800000x1_S800000x128_1_0_0_1 := rfl

/-- The edge count's scatter-add's dimension numbers agree. -/
theorem scatter_count_eq : Cert.KernelIdeal.scatter_S50000x1_S800000x1_S800000x1_1_0_0_1
    = Cert.ReferenceIdeal.scatter_S50000x1_S800000x1_S800000x1_1_0_0_1 := rfl

/-- The kernel program's neighbour mean is the reference's. -/
theorem aggK_eq_aggR (f : FVec F Cert.KernelIdeal.S50000x128 .f32) (ei : IVec Cert.KernelIdeal.S2x800000 32) :
    Cert.KernelIdeal.Sage.aggK f ei = Cert.ReferenceIdeal.Sage.aggR f ei := by
  unfold Cert.KernelIdeal.Sage.aggK Cert.ReferenceIdeal.Sage.aggR Cert.KernelIdeal.Sage.srcK Cert.KernelIdeal.Sage.dstK
    Cert.ReferenceIdeal.Sage.srcR Cert.ReferenceIdeal.Sage.dstR
  rw [gather_eq, scatter_rows_eq, scatter_count_eq]

end Cert.Proof.Sage

end
-- ==== Proof.lean ====
/-
  Two SAGE layers and a linear head over a graph of 50000 nodes: the Pallas program against its jnp reference.

  Both programs form the neighbour mean of a feature array by the same host operations (gather the source rows,
  add them into the destination rows, divide by the edge count, at least one); it is carried as one function and
  never opened. Between the means the kernel program runs two gridded kernels, 25 blocks of 2000 nodes each:
  the first computes `relu((a · W1l + b1) + (x · W1r))`, the second the same layer on the first's result followed by
  the head against a weight matrix padded to 128 columns whose column 0 is the head's weight; the program returns
  column 0. At the ideal values a change of float format is the identity and a matrix product is the plain sum over
  the 128 input features, so each kernel's result array is one whole-array function of the arrays it reads
  (block by block, the blocks tiling the rows), and column 0 of the padded head reads the real weight column and
  bias only. The reference computes the same layers by `dot_general`, in the same association of the sums.
  No law beyond re-indexing the sums is used, and the precondition is never opened.

  The frames are the generated ones; the kernel program's run is the generated launch called again with the result
  buffer named (Proof/KRun.lean); `preserves` has no entry.
-/
import proofs.«177558_j77171972374887_1_alg».proof.Defs
import proofs.«177558_j77171972374887_1_alg».proof.Proof.Gen.Kernel
import proofs.«177558_j77171972374887_1_alg».proof.Proof.Gen.Kernel.Skeleton
import proofs.«177558_j77171972374887_1_alg».proof.Proof.Gen.Kernel.Launch
import proofs.«177558_j77171972374887_1_alg».proof.Proof.Gen.Kernel.Points
import proofs.«177558_j77171972374887_1_alg».proof.Proof.Gen.Kernel.Frame
import proofs.«177558_j77171972374887_1_alg».proof.Proof.Gen.KernelIdeal
import proofs.«177558_j77171972374887_1_alg».proof.Proof.Gen.KernelIdeal.Skeleton
import proofs.«177558_j77171972374887_1_alg».proof.Proof.Gen.KernelIdeal.Launch
import proofs.«177558_j77171972374887_1_alg».proof.Proof.Gen.KernelIdeal.Points
import proofs.«177558_j77171972374887_1_alg».proof.Proof.Gen.KernelIdeal.Frame
import proofs.«177558_j77171972374887_1_alg».proof.Proof.Gen.ReferenceIdeal
import proofs.«177558_j77171972374887_1_alg».proof.Proof.Gen.Pre_finite_inputs
import Idealize.ShloMosaic.Adequacy
import Idealize.ShloMosaic.Init
import proofs.«177558_j77171972374887_1_alg».proof.Proof.KRun
import proofs.«177558_j77171972374887_1_alg».proof.Proof.KernelValue
import proofs.«177558_j77171972374887_1_alg».proof.Proof.RefValue
import proofs.«177558_j77171972374887_1_alg».proof.Proof.AggEq

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the model's value of the arguments: the kernel program over its neighbour mean, the
    reference over its own, and the two means are one function. -/
theorem algebraic : Cert.algebraic_KernelIdeal_ReferenceIdeal := by
  intro m ρ m' ρ' _ hagree
  refine ⟨fun c => Cert.KernelIdeal.Gen.W5 m ρ c (Proc.devRef .tc Cert.KernelIdeal.main_v55),
    Cert.KernelIdeal.Sage.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Sage.ref_value m' c).trans ?_
  refine Eq.trans ?_ (Cert.KernelIdeal.Sage.kernel_value m ρ c).symm
  obtain ⟨h0, h1, h2, h3, h4, h5, h6, h7, h8, h9⟩ := hagree c
  rw [h0, h1, h2, h3, h4, h5, h6, h7, h8, h9]
  simp only [Cert.Proof.Sage.aggK_eq_aggR]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
